-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel

variable [Facts]

def fn {F : FTy → Type} [FloatOps F] (main_arg0 : FVec F S64x512 .f32) (main_arg1 : IVec S64x512 32) (main_arg2 : FVec F S64x512 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  main_v8
-- ==== Kernel.lean ====
abbrev S64x512 : Shape := ⟨2, ![64, 512]⟩
abbrev S64x1x512 : Shape := ⟨3, ![64, 1, 512]⟩
abbrev S64x512x512 : Shape := ⟨3, ![64, 512, 512]⟩
abbrev S4x1x512 : Shape := ⟨3, ![4, 1, 512]⟩
abbrev S4x512x512 : Shape := ⟨3, ![4, 512, 512]⟩
abbrev S4x512 : Shape := ⟨2, ![4, 512]⟩
abbrev S4x512x1 : Shape := ⟨3, ![4, 512, 1]⟩

abbrev nBuf : Space → Nat
  | .hbm => 7
  | .vmem => 8
  | .smem => 0
  | _ => 0

abbrev bufTy : (tb : Table) → Fin (tcTables nBuf tb) → BufTy
  | .hbm, ⟨0, _⟩ => ⟨S64x512, .f32⟩
  | .hbm, ⟨1, _⟩ => ⟨S64x512, .i32⟩
  | .hbm, ⟨2, _⟩ => ⟨S64x512, .f32⟩
  | .hbm, ⟨3, _⟩ => ⟨S64x1x512, .f32⟩
  | .hbm, ⟨4, _⟩ => ⟨S64x1x512, .i32⟩
  | .hbm, ⟨5, _⟩ => ⟨S64x1x512, .f32⟩
  | .hbm, ⟨6, _⟩ => ⟨S64x512x512, .f32⟩
  | .local _ .vmem, ⟨0, _⟩ => ⟨S4x1x512, .f32⟩
  | .local _ .vmem, ⟨1, _⟩ => ⟨S4x1x512, .f32⟩
  | .local _ .vmem, ⟨2, _⟩ => ⟨S4x1x512, .i32⟩
  | .local _ .vmem, ⟨3, _⟩ => ⟨S4x1x512, .i32⟩
  | .local _ .vmem, ⟨4, _⟩ => ⟨S4x1x512, .f32⟩
  | .local _ .vmem, ⟨5, _⟩ => ⟨S4x1x512, .f32⟩
  | .local _ .vmem, ⟨6, _⟩ => ⟨S4x512x512, .f32⟩
  | .local _ .vmem, ⟨7, _⟩ => ⟨S4x512x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512_S64x1x512 : S64x512.ShapeCasts S64x1x512
  inb_S4x1x512_S4x1x512_0_0_0 : ∀ a, (![0, 0, 0] : Fin 3 → Nat) a + S4x1x512.size a ≤ S4x1x512.size a
  h_S4x1x512 : 0 < S4x1x512.numel
  shapeCasts_S4x1x512_S4x512 : S4x1x512.ShapeCasts S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  natLt_1_32 : 1 < 32
  inb_S4x512x512_S4x512x512_0_0_0 : ∀ a, (![0, 0, 0] : Fin 3 → Nat) a + S4x512x512.size a ≤ S4x512x512.size a
  h_S4x512x512 : 0 < S4x512x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x512.size a ≤ S64x1x512.size a
  hwx0_0 : ∀ i : grid0.Coords, EltTy.bits .f32 = 32 ∨ (Rect.block (s := S64x1x512) S4x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x512.size a ≤ S64x1x512.size a
  hwx0_1 : ∀ i : grid0.Coords, EltTy.bits .i32 = 32 ∨ (Rect.block (s := S64x1x512) S4x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x512.size a ≤ S64x1x512.size a
  hwx0_2 : ∀ i : grid0.Coords, EltTy.bits .f32 = 32 ∨ (Rect.block (s := S64x1x512) S4x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x512.size a ≤ S64x512x512.size a
  hwx0_3 : ∀ i : grid0.Coords, EltTy.bits .f32 = 32 ∨ (Rect.block (s := S64x512x512) S4x512x512.size (cc0_transform_3 i) (hinb0_3 i)).WholeWords (EltTy.packing .f32)

variable [Facts₀]

abbrev win0_0 : Pipeline.Window sig grid0 :=
  Pipeline.Window.ofSpec (Memref.whole main_v0) S4x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512 : Shape := ⟨2, ![64, 512]⟩
abbrev S64x512x1 : Shape := ⟨3, ![64, 512, 1]⟩
abbrev S64x1x512 : Shape := ⟨3, ![64, 1, 512]⟩
abbrev S64x512x512 : Shape := ⟨3, ![64, 512, 512]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S64x512, .i32⟩
  | .hbm, ⟨2, _⟩ => ⟨S64x512, .f32⟩
  | .hbm, ⟨3, _⟩ => ⟨S64x512x1, .f32⟩
  | .hbm, ⟨4, _⟩ => ⟨S64x1x512, .f32⟩
  | .hbm, ⟨5, _⟩ => ⟨S64x512x512, .f32⟩
  | .hbm, ⟨6, _⟩ => ⟨S64x512x512, .f32⟩
  | .hbm, ⟨7, _⟩ => ⟨S64x512x512, .f32⟩
  | .hbm, ⟨8, _⟩ => ⟨S64x512x1, .f32⟩
  | .hbm, ⟨9, _⟩ => ⟨S64x1x512, .f32⟩
  | .hbm, ⟨10, _⟩ => ⟨S64x512x512, .f32⟩
  | .hbm, ⟨11, _⟩ => ⟨S64x512x512, .f32⟩
  | .hbm, ⟨12, _⟩ => ⟨S64x512x512, .f32⟩
  | .hbm, ⟨13, _⟩ => ⟨S_, .f32⟩
  | .hbm, ⟨14, _⟩ => ⟨S64x512x512, .f32⟩
  | .hbm, ⟨15, _⟩ => ⟨S64x512x512, .f32⟩
  | .hbm, ⟨16, _⟩ => ⟨S64x512x512, .f32⟩
  | .hbm, ⟨17, _⟩ => ⟨S64x512x512, .f32⟩
  | .hbm, ⟨18, _⟩ => ⟨S_, .f32⟩
  | .hbm, ⟨19, _⟩ => ⟨S64x512x512, .f32⟩
  | .hbm, ⟨20, _⟩ => ⟨S64x512x512, .f32⟩
  | .hbm, ⟨21, _⟩ => ⟨S_, .f32⟩
  | .hbm, ⟨22, _⟩ => ⟨S64x512x512, .f32⟩
  | .hbm, ⟨23, _⟩ => ⟨S64x512x512, .f32⟩
  | .hbm, ⟨24, _⟩ => ⟨S64x512x512, .f32⟩
  | .hbm, ⟨25, _⟩ => ⟨S64x512x1, .i32⟩
  | .hbm, ⟨26, _⟩ => ⟨S64x1x512, .i32⟩
  | .hbm, ⟨27, _⟩ => ⟨S64x512x512, .i32⟩
  | .hbm, ⟨28, _⟩ => ⟨S64x512x512, .i32⟩
  | .hbm, ⟨29, _⟩ => ⟨S64x512x512, .i1⟩
  | .hbm, ⟨30, _⟩ => ⟨S64x512x512, .i32⟩
  | .hbm, ⟨31, _⟩ => ⟨S64x512x512, .i32⟩
  | .hbm, ⟨32, _⟩ => ⟨S64x512x512, .i1⟩
  | .hbm, ⟨33, _⟩ => ⟨S_, .f32⟩
  | .hbm, ⟨34, _⟩ => ⟨S_, .f32⟩
  | .hbm, ⟨35, _⟩ => ⟨S64x512x512, .f32⟩
  | .hbm, ⟨36, _⟩ => ⟨S64x512x512, .f32⟩
  | .hbm, ⟨37, _⟩ => ⟨S64x512x512, .f32⟩
  | .hbm, ⟨38, _⟩ => ⟨S_, .f32⟩
  | .hbm, ⟨39, _⟩ => ⟨S64x512x512, .f32⟩
  | .hbm, ⟨40, _⟩ => ⟨S64x512x512, .f32⟩
  | .hbm, ⟨41, _⟩ => ⟨S64x512x512, .f32⟩
  | .hbm, ⟨42, _⟩ => ⟨S64x512x512, .f32⟩
  | .hbm, ⟨43, _⟩ => ⟨S_, .f32⟩
  | .hbm, ⟨44, _⟩ => ⟨S64x512x512, .f32⟩
  | .hbm, ⟨45, _⟩ => ⟨S64x512x512, .i1⟩
  | .hbm, ⟨46, _⟩ => ⟨S64x512x512, .f32⟩
  | .hbm, ⟨47, _⟩ => ⟨S64x512x512, .f32⟩
  | .hbm, ⟨48, _⟩ => ⟨S64x512x512, .f32⟩
  | .hbm, ⟨49, _⟩ => ⟨S64x512x512, .f32⟩
  | .hbm, ⟨50, _⟩ => ⟨S64x512x512, .f32⟩
  | .hbm, ⟨51, _⟩ => ⟨S64x512x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v27 : Ref sig .tc := ⟨.hbm, 37, rfl⟩
abbrev main_cst_4 : Ref sig .tc := ⟨.hbm, 38, rfl⟩
abbrev main_call1_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)

variable [Facts₀]

class Facts : Prop extends Facts₀ where

variable [Facts]
-- ==== Proof.PairLoss.lean ====
/-
  The pairwise ranking loss, one entry at a time.

  For a batch row with scores `o`, integer labels `t` and a mask `m`, the entry at the pair (j, k) is

      ((σ(5·(o j − o k))·w)·h − (ℓ·w)·h)² · w,      w = m j · m k,

  where σ is the logistic function, ℓ = 1, 0 or 1/2 as `t j` is above, below or equal to `t k`, and
  h = 1 unless ℓ·w is exactly 1/2 (a tie under a full mask), in which case h = 0 and the entry drops out.
  `entry` spells that with the vector unit's scalar operations, generic in the float family. The host program
  writes three of its pieces differently: σ as 1 / (1 + exp (−x)) with 1 the word 0x3F800000, the test "ℓ·w ≠ 1/2"
  as the unordered comparison, and h as the unsigned reading of the one-bit answer instead of the signed reading of
  its 32-bit extension. Over the extended reals each pair is one function: `logistic_spelt`, `une_eq_one`,
  `keep_unsigned`. No entry of this file needs a finite argument.
-/
import Idealize.ShloMosaic.PureOps.Ideal
import Idealize.ShloMosaic.PureOps.Ideal.Laws
import Idealize.ShloMosaic.Lib.ValueIdx

noncomputable section

namespace Cert.PairLoss

open Idealize.ShloMosaic

section Generic
variable {F : FTy → Type} [FloatOps F]

/-- The target of a pair: 1 when the first label is the larger, 0 when it is the smaller, 1/2 at a tie. -/
def label (tj tk : BitVec 32) : F .f32 :=
  Scalar.select (IntOp.cmpi .sgt tj tk) (Scalar.ofBits .f32 0x3F800000#32)
    (Scalar.select (IntOp.cmpi .slt tj tk) (Scalar.ofBits .f32 0x00000000#32) (Scalar.ofBits .f32 0x3F000000#32))

/-- 1 unless the masked target is exactly 1/2, then 0: the one-bit answer of "≠ 1/2", widened and read signed. -/
def keep (tw : F .f32) : F .f32 :=
  FloatOps.sitofp (F := F) .f32 ((FloatOps.cmpf (F := F) .one tw (Scalar.ofBits .f32 0x3F000000#32)).setWidth 32)

/-- The loss entry of one pair from its two scores, two labels and two mask entries. -/
def entry (oj ok : F .f32) (tj tk : BitVec 32) (mj mk : F .f32) : F .f32 :=
  FloatOps.mulf
    (FloatOps.mulf
      (FloatOps.subf
        (FloatOps.mulf
          (FloatOps.mulf (FloatOps.logistic (FloatOps.mulf (Scalar.ofBits .f32 0x40A00000#32) (FloatOps.subf oj ok))) (FloatOps.mulf mj mk))
          (keep (FloatOps.mulf (label tj tk) (FloatOps.mulf mj mk))))
        (FloatOps.mulf (FloatOps.mulf (label tj tk) (FloatOps.mulf mj mk)) (keep (FloatOps.mulf (label tj tk) (FloatOps.mulf mj mk)))))
      (FloatOps.subf
        (FloatOps.mulf
          (FloatOps.mulf (FloatOps.logistic (FloatOps.mulf (Scalar.ofBits .f32 0x40A00000#32) (FloatOps.subf oj ok))) (FloatOps.mulf mj mk))
          (keep (FloatOps.mulf (label tj tk) (FloatOps.mulf mj mk))))
        (FloatOps.mulf (FloatOps.mulf (label tj tk) (FloatOps.mulf mj mk)) (keep (FloatOps.mulf (label tj tk) (FloatOps.mulf mj mk))))))
    (FloatOps.mulf mj mk)

/-- The shape of an argument, [64, 512]: batch row by position. -/
abbrev Rows : Shape := ⟨2, ![64, 512]⟩
/-- The shape of the result, [64, 512, 512]: batch row by a pair of positions. -/
abbrev Pairs : Shape := ⟨3, ![64, 512, 512]⟩

/-- (b, j) of (b, j, k): where the pair's first member sits in an argument. -/
abbrev rowOf (i : Pairs.Idx) : Rows.Idx := fun a => match a with
  | ⟨0, _⟩ => ⟨(i 0).val, (i 0).isLt⟩
  | ⟨1, _⟩ => ⟨(i 1).val, (i 1).isLt⟩

/-- (b, k) of (b, j, k): where the pair's second member sits. -/
abbrev colOf (i : Pairs.Idx) : Rows.Idx := fun a => match a with
  | ⟨0, _⟩ => ⟨(i 0).val, (i 0).isLt⟩
  | ⟨1, _⟩ => ⟨(i 2).val, (i 2).isLt⟩

/-- The whole result as one function of the three argument arrays: at (b, j, k) the loss entry of the pair (j, k) of
    batch row b. -/
def lossArray (o : Rows.Idx → Elt F .f32) (t : Rows.Idx → Elt F .i32) (m : Rows.Idx → Elt F .f32) : Pairs.Idx → Elt F .f32 :=
  fun i => entry (F := F) (o (rowOf i)) (o (colOf i)) (t (rowOf i)) (t (colOf i)) (m (rowOf i)) (m (colOf i))

end Generic

/-! ## The host's spelling of three pieces, over the extended reals -/

/-- The word 0x3F800000 is the real number 1. -/
theorem one_word : Ideal.ofBits .f32 0x3F800000#32 = 1 := by
  simp [Ideal.ofBits, Ideal.ieee, -EReal.coe_mul]; norm_num

/-- 1 / (1 + exp (−x)), written with the host's division, exponential and negation and the word for 1, is the logistic
    function: over the extended reals that quotient is its definition. -/
theorem logistic_spelt (x : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf x)))
    = FloatOps.logistic x := by
  show Ideal.div (Ideal.ofBits .f32 0x3F800000#32) (Ideal.ofBits .f32 0x3F800000#32 + Ideal.exp (-x)) = Ideal.div 1 (1 + Ideal.exp (-x))
  rw [one_word]

/-- No extended real is unordered, so "unordered or unequal" and "ordered and unequal" are one test. -/
theorem une_eq_one (x y : Ideal .f32) : FloatOps.cmpf .une x y = FloatOps.cmpf .one x y := rfl

/-- A one-bit answer read unsigned is its 32-bit zero extension read signed: 0 or 1 either way. -/
theorem keep_unsigned (b : BitVec 1) :
    FloatOps.uitofp (F := Ideal) .f32 b = FloatOps.sitofp (F := Ideal) .f32 (b.setWidth 32) := by
  show ((b.toNat : ℝ) : EReal) = (((b.setWidth 32).toInt : ℝ) : EReal)
  by_cases h : b = 1#1
  · subst h
    have e : ((1#1 : BitVec 1).setWidth 32).toInt = 1 := by decide
    have e' : (1#1 : BitVec 1).toNat = 1 := by decide
    rw [e, e']; norm_num
  · have h0 := ValueIdx.eq_zero_of_ne_one h
    subst h0
    have e : ((0#1 : BitVec 1).setWidth 32).toInt = 0 := by decide
    have e' : (0#1 : BitVec 1).toNat = 0 := by decide
    rw [e, e']; norm_num

end Cert.PairLoss

end
-- ==== Proof.RefEntry.lean ====
/-
  What the reference program leaves at one index of its result.

  The host program broadcasts each [64, 512] argument twice — once along a new trailing axis, once along a new middle axis
  — to [64, 512, 512], so that index (b, j, k) meets row entry (b, j) and column entry (b, k) of the argument, and then
  works entry by entry. Read one operation at a time, its result at (b, j, k) is `PairLoss.entry` of the scores, labels
  and mask at (b, j) and (b, k): the composed index maps of the broadcasts are `rowOf` and `colOf`, and the three
  pieces the host spells differently are the ones `PairLoss` joins.
-/
import proofs.«149526_j79104707657795_1_alg».proof.Proof.Gen.ReferenceIdeal.Read
import proofs.«149526_j79104707657795_1_alg».proof.Proof.PairLoss

noncomputable section

namespace Cert.ReferenceIdeal.PairRead

open Cert.ReferenceIdeal Cert.ReferenceIdeal.Read Cert.PairLoss Idealize.ShloMosaic

/-! The two broadcasts of each argument, composed, read it at `rowOf` or at `colOf`. -/

theorem mask_row (i : S64x512x512.Idx) : idx_main_v0 (idx_main_v2 i) = rowOf i :=
  funext fun a => match a with | ⟨0, _⟩ => rfl | ⟨1, _⟩ => rfl
theorem mask_col (i : S64x512x512.Idx) : idx_main_v1 (idx_main_v3 i) = colOf i :=
  funext fun a => match a with | ⟨0, _⟩ => rfl | ⟨1, _⟩ => rfl
theorem score_row (i : S64x512x512.Idx) : idx_main_v5 (idx_main_v7 i) = rowOf i :=
  funext fun a => match a with | ⟨0, _⟩ => rfl | ⟨1, _⟩ => rfl
theorem score_col (i : S64x512x512.Idx) : idx_main_v6 (idx_main_v8 i) = colOf i :=
  funext fun a => match a with | ⟨0, _⟩ => rfl | ⟨1, _⟩ => rfl
theorem label_row (i : S64x512x512.Idx) : idx_main_v19 (idx_main_v21 i) = rowOf i :=
  funext fun a => match a with | ⟨0, _⟩ => rfl | ⟨1, _⟩ => rfl
theorem label_col (i : S64x512x512.Idx) : idx_main_v20 (idx_main_v22 i) = colOf i :=
  funext fun a => match a with | ⟨0, _⟩ => rfl | ⟨1, _⟩ => rfl
theorem label_row' (i : S64x512x512.Idx) : idx_main_v19 (idx_main_v24 i) = rowOf i :=
  funext fun a => match a with | ⟨0, _⟩ => rfl | ⟨1, _⟩ => rfl
theorem label_col' (i : S64x512x512.Idx) : idx_main_v20 (idx_main_v25 i) = colOf i :=
  funext fun a => match a with | ⟨0, _⟩ => rfl | ⟨1, _⟩ => rfl

/-- The reference's result at (b, j, k) is the loss entry of the pair (j, k) of batch row b. -/
theorem result_apply (x0 x2 : (⟨S64x512, .f32⟩ : BufTy).Contents (Elt Ideal)) (x1 : (⟨S64x512, .i32⟩ : BufTy).Contents (Elt Ideal))
    (i : S64x512x512.Idx) :
    val_main_v38 (F := Ideal) x0 x1 x2 i
      = PairLoss.entry (F := Ideal) (x0 (rowOf i)) (x0 (colOf i)) (x1 (rowOf i)) (x1 (colOf i)) (x2 (rowOf i)) (x2 (colOf i)) := by
  simp only [val_main_v38_apply, val_main_v37_apply, val_main_v36_apply, val_main_v35_apply, val_main_v34_apply,
    val_main_v33_apply, val_main_v32_apply, val_main_v31_apply, val_main_cst_5_apply, val_main_v30_apply, val_main_v29_apply,
    val_main_v28_apply, val_main_call1_v0_apply, val_main_cst_4_apply, val_main_v27_apply, val_main_call0_v1_apply,
    val_main_call0_v0_apply, val_main_cst_3_apply, val_main_cst_2_apply, val_main_v26_apply, val_main_v25_apply,
    val_main_v24_apply, val_main_v23_apply, val_main_v22_apply, val_main_v21_apply, val_main_v20_apply, val_main_v19_apply,
    val_main_v18_apply, val_main_v17_apply, val_main_v16_apply, val_main_cst_1_apply, val_main_v15_apply, val_main_v14_apply,
    val_main_cst_0_apply, val_main_v13_apply, val_main_v12_apply, val_main_v11_apply, val_main_v10_apply, val_main_cst_apply,
    val_main_v9_apply, val_main_v8_apply, val_main_v7_apply, val_main_v6_apply, val_main_v5_apply, val_main_v4_apply,
    val_main_v3_apply, val_main_v2_apply, val_main_v1_apply, val_main_v0_apply,
    mask_row, mask_col, score_row, score_col, label_row, label_col, label_row', label_col',
    PairLoss.logistic_spelt, PairLoss.une_eq_one, PairLoss.keep_unsigned]
  rfl

/-- The reference's result, as a whole array, is the loss array of its three arguments. -/
theorem result_eq (x0 x2 : (⟨S64x512, .f32⟩ : BufTy).Contents (Elt Ideal)) (x1 : (⟨S64x512, .i32⟩ : BufTy).Contents (Elt Ideal)) :
    val_main_v38 (F := Ideal) x0 x1 x2 = lossArray (F := Ideal) x0 x1 x2 :=
  funext fun i => result_apply x0 x2 x1 i

end Cert.ReferenceIdeal.PairRead

end
-- ==== Proof.KernelArray.lean ====
/-
  What the kernel leaves in its result array.

  The grid has 16 points; point t works on batch rows 4t … 4t+3. Its three input blocks are [4, 1, 512] blocks of the
  arguments viewed [64, 1, 512] (a host reshape before the launch, which moves no element), and its output block is the
  [4, 512, 512] block of the result at the same rows. Inside the block the body broadcasts a row once along a new trailing
  axis and once along a new middle axis, so that block index (p, j, k) meets the loaded entries (p, 0, j) and (p, 0, k),
  and computes `PairLoss.entry` of them. Under the block's rectangle that is the loss array at (4t+p, j, k); the 16
  output blocks tile the result, so the whole array ends as `PairLoss.lossArray` of the arguments.
-/
import proofs.«149526_j79104707657795_1_alg».proof.Proof.KernelValue
import proofs.«149526_j79104707657795_1_alg».proof.Proof.PairLoss
import Idealize.ShloMosaic.Lib.StableHlo.Run

noncomputable section

namespace Cert.KernelIdeal.PairArray

open Cert.KernelIdeal Cert.KernelIdeal.Gen Cert.KernelIdeal.ValueP Cert.PairLoss
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The arguments as the launch finds them: viewed [64, 1, 512] -/

theorem scores_viewed (c : Dev nD) :
    (V m c main_v0 : S64x1x512.Idx → Elt F .f32) = shapeCast S64x1x512 (m ((c : Thread nD τ).loc main_arg0)) shapeCasts_S64x512_S64x1x512 := by
  dsimp only [Gen.V, Gen.hostOps0]; after_results; rfl

theorem labels_viewed (c : Dev nD) :
    (V m c main_v1 : S64x1x512.Idx → Elt F .i32) = shapeCast S64x1x512 (m ((c : Thread nD τ).loc main_arg1)) shapeCasts_S64x512_S64x1x512 := by
  dsimp only [Gen.V, Gen.hostOps0]; after_results; rfl

theorem mask_viewed (c : Dev nD) :
    (V m c main_v2 : S64x1x512.Idx → Elt F .f32) = shapeCast S64x1x512 (m ((c : Thread nD τ).loc main_arg2)) shapeCasts_S64x512_S64x1x512 := by
  dsimp only [Gen.V, Gen.hostOps0]; after_results; rfl

/-- A [64, 512] array viewed [64, 1, 512] and read at (b, 0, j) is the array at (b, j): the unit axis adds nothing to the
    row-major position. -/
theorem viewed_apply {α : Type} (x : S64x512.Idx → α) (e : S64x1x512.Idx) (k : S64x512.Idx)
    (h0 : (k 0).val = (e 0).val) (h1 : (k 1).val = (e 2).val) :
    shapeCast S64x1x512 x shapeCasts_S64x512_S64x1x512 e = x k := by
  refine shapeCast_apply x _ e k ?_
  rw [Shape.rowMajor_val_two, Shape.rowMajor_val_three]
  have he : (e 1).val < 1 := (e 1).isLt
  show (k 0).val * 512 + (k 1).val = ((e 0).val * 1 + (e 1).val) * 512 + (e 2).val
  omega

/-! ## One point's block -/

theorem zeros3 : (![0, 0, 0] : Fin 3 → Nat) = fun _ => 0 := funext fun a => by fin_cases a <;> rfl

/-- What the body leaves in the output block, entry by entry: block index (p, j, k) gets the loss entry of the loaded
    scores, labels and mask entries at (p, 0, j) and (p, 0, k). -/
theorem block_apply (x0 : Vec F S4x1x512 .f32) (x1 : Vec F S4x1x512 .i32) (x2 : Vec F S4x1x512 .f32) (j : S4x512x512.Idx) :
    out0_3 x0 x1 x2 j
      = entry (F := F) (x0 (ix3_0 j)) (x0 (ix3_1 j)) (x1 (ix3_0 j)) (x1 (ix3_1 j)) (x2 (ix3_0 j)) (x2 (ix3_1 j)) := by
  unfold out0_3
  rw [canon3_eq]
  simp only [View.ld_unit_zero (S := S4x1x512) zeros3]
  rfl

/-- The windows' index maps over the 16 points: every window's block index is (t, 0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The scores block of point t at (p, 0, q) is the scores argument at (4t + p, q). -/
theorem scores_block (c : Dev nD) (t : Fin cfg0.N) (y : S4x1x512.Idx) (k : S64x512.Idx)
    (h0 : (k 0).val = t.val * 4 + (y 0).val) (h1 : (k 1).val = (y 2).val) :
    iblk m c 0 t y = m ((c : Thread nD τ).loc main_arg0) k := by
  obtain ⟨e0, e1, e2, -⟩ := index_facts t
  refine (congrFun (scores_viewed m c) (((cfg0.win 0).blk t).view.emb y)).trans ?_
  refine viewed_apply _ _ k ?_ ?_
  · show (k 0).val = win0_0.index t (0 : Fin 3) * 4 + 1 * (y 0).val; omega
  · show (k 1).val = win0_0.index t (2 : Fin 3) * 512 + 1 * (y 2).val; omega

/-- The labels block of point t at (p, 0, q) is the labels argument at (4t + p, q). -/
theorem labels_block (c : Dev nD) (t : Fin cfg0.N) (y : S4x1x512.Idx) (k : S64x512.Idx)
    (h0 : (k 0).val = t.val * 4 + (y 0).val) (h1 : (k 1).val = (y 2).val) :
    iblk m c 1 t y = m ((c : Thread nD τ).loc main_arg1) k := by
  obtain ⟨-, -, -, e0, e1, e2, -⟩ := index_facts t
  refine (congrFun (labels_viewed m c) (((cfg0.win 1).blk t).view.emb y)).trans ?_
  refine viewed_apply _ _ k ?_ ?_
  · show (k 0).val = win0_1.index t (0 : Fin 3) * 4 + 1 * (y 0).val; omega
  · show (k 1).val = win0_1.index t (2 : Fin 3) * 512 + 1 * (y 2).val; omega

/-- The mask block of point t at (p, 0, q) is the mask argument at (4t + p, q). -/
theorem mask_block (c : Dev nD) (t : Fin cfg0.N) (y : S4x1x512.Idx) (k : S64x512.Idx)
    (h0 : (k 0).val = t.val * 4 + (y 0).val) (h1 : (k 1).val = (y 2).val) :
    iblk m c 2 t y = m ((c : Thread nD τ).loc main_arg2) k := by
  obtain ⟨-, -, -, -, -, -, e0, e1, e2, -⟩ := index_facts t
  refine (congrFun (mask_viewed m c) (((cfg0.win 2).blk t).view.emb y)).trans ?_
  refine viewed_apply _ _ k ?_ ?_
  · show (k 0).val = win0_2.index t (0 : Fin 3) * 4 + 1 * (y 0).val; omega
  · show (k 1).val = win0_2.index t (2 : Fin 3) * 512 + 1 * (y 2).val; omega

/-- WHAT POINT t WRITES BACK is block t of the loss array of the arguments. -/
theorem flushed_eq (c : Dev nD) (t : Fin cfg0.N) :
    (dats m 0 c).flushed 3 t = ((cfg0.win 3).blk t).view.read (Elt F)
      (lossArray (F := F) (m ((c : Thread nD τ).loc main_arg0)) (m ((c : Thread nD τ).loc main_arg1)) (m ((c : Thread nD τ).loc main_arg2))) := by
  rw [flushed3]
  obtain ⟨-, -, -, -, -, -, -, -, -, e0, e1, e2⟩ := index_facts t
  funext j
  refine (block_apply (iblk m c 0 t) (iblk m c 1 t) (iblk m c 2 t) j).trans ?_
  have r0 : ((((cfg0.win 3).blk t).view.emb j) 0).val = t.val * 4 + (j 0).val := by
    show win0_3.index t (0 : Fin 3) * 4 + 1 * (j 0).val = _; omega
  have r1 : ((((cfg0.win 3).blk t).view.emb j) 1).val = (j 1).val := by
    show win0_3.index t (1 : Fin 3) * 512 + 1 * (j 1).val = _; omega
  have r2 : ((((cfg0.win 3).blk t).view.emb j) 2).val = (j 2).val := by
    show win0_3.index t (2 : Fin 3) * 512 + 1 * (j 2).val = _; omega
  show _ = entry (F := F)
    (m ((c : Thread nD τ).loc main_arg0) (rowOf (((cfg0.win 3).blk t).view.emb j)))
    (m ((c : Thread nD τ).loc main_arg0) (colOf (((cfg0.win 3).blk t).view.emb j)))
    (m ((c : Thread nD τ).loc main_arg1) (rowOf (((cfg0.win 3).blk t).view.emb j)))
    (m ((c : Thread nD τ).loc main_arg1) (colOf (((cfg0.win 3).blk t).view.emb j)))
    (m ((c : Thread nD τ).loc main_arg2) (rowOf (((cfg0.win 3).blk t).view.emb j)))
    (m ((c : Thread nD τ).loc main_arg2) (colOf (((cfg0.win 3).blk t).view.emb j)))
  rw [scores_block m c t (ix3_0 j) (rowOf (((cfg0.win 3).blk t).view.emb j)) r0 r1,
    scores_block m c t (ix3_1 j) (colOf (((cfg0.win 3).blk t).view.emb j)) r0 r2,
    labels_block m c t (ix3_0 j) (rowOf (((cfg0.win 3).blk t).view.emb j)) r0 r1,
    labels_block m c t (ix3_1 j) (colOf (((cfg0.win 3).blk t).view.emb j)) r0 r2,
    mask_block m c t (ix3_0 j) (rowOf (((cfg0.win 3).blk t).view.emb j)) r0 r1,
    mask_block m c t (ix3_1 j) (colOf (((cfg0.win 3).blk t).view.emb j)) r0 r2]

/-! ## The 16 blocks tile the result -/

/-- An index of the result is in point t's block iff each coordinate is in the block's range on its axis. -/
theorem mem_block (t : Fin cfg0.N) (i : S64x512x512.Idx) :
    i ∈ ((cfg0.win 3).blk t).view.set ↔ ∀ a : Fin 3, win0_3.index t a * S4x512x512.size a ≤ (i a).val ∧ (i a).val < win0_3.index t a * S4x512x512.size a + S4x512x512.size a := by
  show i ∈ ((View.whole main_v3).slice (win0_3.rect t)).set ↔ _
  rw [View.set_slice_whole, Rect.mem_set_unit]
  exact Iff.rfl

/-- Batch row b lies in the block of point b / 4. -/
theorem covered (i : S64x512x512.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 512 := (i 2).isLt
  have hN : (i 0).val / 4 < cfg0.N := by show (i 0).val / 4 < grid0.N; rw [N_0]; omega
  refine ⟨⟨(i 0).val / 4, hN⟩, flush0_3 _, ?_⟩
  obtain ⟨-, -, -, -, -, -, -, -, -, e0, e1, e2⟩ := index_facts ⟨(i 0).val / 4, hN⟩
  rw [mem_block]
  intro a
  match a with
  | ⟨0, _⟩ =>
    show win0_3.index ⟨(i 0).val / 4, hN⟩ (0 : Fin 3) * 4 ≤ (i 0).val ∧ (i 0).val < win0_3.index ⟨(i 0).val / 4, hN⟩ (0 : Fin 3) * 4 + 4
    rw [e0]; show (i 0).val / 4 * 4 ≤ (i 0).val ∧ (i 0).val < (i 0).val / 4 * 4 + 4; omega
  | ⟨1, _⟩ =>
    show win0_3.index ⟨(i 0).val / 4, hN⟩ (1 : Fin 3) * 512 ≤ (i 1).val ∧ (i 1).val < win0_3.index ⟨(i 0).val / 4, hN⟩ (1 : Fin 3) * 512 + 512
    omega
  | ⟨2, _⟩ =>
    show win0_3.index ⟨(i 0).val / 4, hN⟩ (2 : Fin 3) * 512 ≤ (i 2).val ∧ (i 2).val < win0_3.index ⟨(i 0).val / 4, hN⟩ (2 : Fin 3) * 512 + 512
    omega

/-- THE RESULT ARRAY after the run is the loss array of the arguments. -/
theorem final (c : Dev nD) :
    (dats m 0 c).arrAt 3 cfg0.N
      = lossArray (F := F) (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel's program ends with the result at the loss array of the arguments and the
    arguments unchanged. -/
theorem run : θ_run defs (onTc (τ := τ) (main (F := F))) ⟨m, fun _ => 0, ρ⟩ fun r => ∀ c : Dev nD,
      r.2.mem ((c : Thread nD τ).loc main_v3)
        = lossArray (F := F) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.PairArray

end
-- ==== Proof.lean ====
/-
  The kernel and its reference compute one array, the pairwise ranking loss.

  For scores `o`, integer labels `t` and a mask `m`, all [64, 512], both programs produce the [64, 512, 512] array whose
  entry at (b, j, k) is

      ((σ(5·(o[b,j] − o[b,k]))·w)·h − (ℓ·w)·h)² · w,      w = m[b,j]·m[b,k],

  with σ the logistic function, ℓ = 1, 0 or 1/2 as t[b,j] is above, below or equal to t[b,k], and h = 0 exactly when
  ℓ·w = 1/2, else 1 (`PairLoss.entry`, `PairLoss.lossArray`).

  The kernel does it four batch rows at a time over 16 grid points, on arguments viewed [64, 1, 512]; its 16 output
  blocks tile the result (`KernelArray`, over the kernel's value leg `KernelValue`). The reference broadcasts the
  arguments to [64, 512, 512] and works entry by entry (`RefEntry`, over the reference's run read one operation at a
  time). The two spell the same operations in the same order; where the spellings differ — σ as 1/(1 + exp(−x)), the
  unordered "≠", the unsigned reading of a one-bit answer — the extended reals make them one function, so the two
  results are equal for every input, finite or not: the precondition is never opened.

  The idealized kernel is the kernel's own text read over the extended reals (the ideal pass rewrote nothing), so
  `preserves` has nothing to state; the three frames are the generated frame runs.
-/
import proofs.«149526_j79104707657795_1_alg».proof.Defs
import proofs.«149526_j79104707657795_1_alg».proof.Proof.Gen.Kernel
import proofs.«149526_j79104707657795_1_alg».proof.Proof.Gen.Kernel.Skeleton
import proofs.«149526_j79104707657795_1_alg».proof.Proof.Gen.Kernel.Launch
import proofs.«149526_j79104707657795_1_alg».proof.Proof.Gen.Kernel.Points
import proofs.«149526_j79104707657795_1_alg».proof.Proof.Gen.Kernel.Frame
import proofs.«149526_j79104707657795_1_alg».proof.Proof.Gen.KernelIdeal
import proofs.«149526_j79104707657795_1_alg».proof.Proof.Gen.KernelIdeal.Skeleton
import proofs.«149526_j79104707657795_1_alg».proof.Proof.Gen.KernelIdeal.Launch
import proofs.«149526_j79104707657795_1_alg».proof.Proof.Gen.KernelIdeal.Points
import proofs.«149526_j79104707657795_1_alg».proof.Proof.Gen.KernelIdeal.Frame
import proofs.«149526_j79104707657795_1_alg».proof.Proof.Gen.ReferenceIdeal
import proofs.«149526_j79104707657795_1_alg».proof.Proof.Gen.Pre_finite_inputs
import proofs.«149526_j79104707657795_1_alg».proof.Proof.Gen.ReferenceIdeal.Run
import proofs.«149526_j79104707657795_1_alg».proof.Proof.Gen.ReferenceIdeal.Read
import proofs.«149526_j79104707657795_1_alg».proof.Proof.KernelValue
import proofs.«149526_j79104707657795_1_alg».proof.Proof.PairLoss
import proofs.«149526_j79104707657795_1_alg».proof.Proof.RefEntry
import proofs.«149526_j79104707657795_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel :=
  fun m ρ _ => Cert.Kernel.Gen.frame m ρ

/-- So does its reading over the extended reals. -/
theorem frame_kernel_ideal : Cert.frame_KernelIdeal :=
  fun m ρ _ => Cert.KernelIdeal.Gen.frame m ρ

/-- The reference runs and leaves its arguments alone: its run, with the result forgotten. -/
theorem frame_reference : Cert.frame_ReferenceIdeal :=
  fun m ρ _ => (θ_run Cert.ReferenceIdeal.defs _ _).mono (fun _ h c => (h c).2) (Cert.ReferenceIdeal.Value.run (F := Ideal) m ρ)

/-- From memories that agree on the three arguments, both programs end with the loss array of those arguments. -/
theorem algebraic : Cert.algebraic_KernelIdeal_ReferenceIdeal := by
  intro m ρ m' ρ' _ hagree
  refine ⟨fun c => Cert.PairLoss.lossArray (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.PairArray.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.PairRead.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
